-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S100000x64 : Shape := ⟨2, ![100000, 64]⟩
abbrev S500000x64 : Shape := ⟨2, ![500000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_

variable [Facts]

def fn {F : FTy → Type} [FloatOps F] (main_arg0 : IVec S256 32) (main_arg1 : FVec F S100000x64 .f32) (main_arg2 : FVec F S500000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S500000x64 .f32 := Host.absf main_arg2
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  main_v8
-- ==== Kernel.lean ====
abbrev S256 : Shape := ⟨1, ![256]⟩
abbrev S100000x64 : Shape := ⟨2, ![100000, 64]⟩
abbrev S500000x64 : Shape := ⟨2, ![500000, 64]⟩
abbrev S_ : Shape := ⟨0, ![]⟩
abbrev S256x1 : Shape := ⟨2, ![256, 1]⟩
abbrev S256x64 : Shape := ⟨2, ![256, 64]⟩
abbrev S503808x64 : Shape := ⟨2, ![503808, 64]⟩
abbrev S256x503808 : Shape := ⟨2, ![256, 503808]⟩
abbrev S4096x64 : Shape := ⟨2, ![4096, 64]⟩
abbrev S256x4096 : Shape := ⟨2, ![256, 4096]⟩
abbrev S64x4096 : Shape := ⟨2, ![64, 4096]⟩
abbrev S4096 : Shape := ⟨1, ![4096]⟩
abbrev S4096x1 : Shape := ⟨2, ![4096, 1]⟩
abbrev S1x4096 : Shape := ⟨2, ![1, 4096]⟩
abbrev S256x500000 : Shape := ⟨2, ![256, 500000]⟩

abbrev nBuf : Space → Nat
  | .hbm => 21
  | .vmem => 6
  | .smem => 0
  | _ => 0

abbrev bufTy : (tb : Table) → Fin (tcTables nBuf tb) → BufTy
  | .hbm, ⟨0, _⟩ => ⟨S256, .i32⟩
  | .hbm, ⟨1, _⟩ => ⟨S100000x64, .f32⟩
  | .hbm, ⟨2, _⟩ => ⟨S500000x64, .f32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x64, .f32⟩
  | .hbm, ⟨12, _⟩ => ⟨S256x64, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S_, .i32⟩
  | .hbm, ⟨17, _⟩ => ⟨S_, .f32⟩
  | .hbm, ⟨18, _⟩ => ⟨S503808x64, .f32⟩
  | .hbm, ⟨19, _⟩ => ⟨S256x503808, .f32⟩
  | .hbm, ⟨20, _⟩ => ⟨S256x500000, .f32⟩
  | .local _ .vmem, ⟨0, _⟩ => ⟨S256x64, .f32⟩
  | .local _ .vmem, ⟨1, _⟩ => ⟨S256x1, .f32⟩
  | .local _ .vmem, ⟨2, _⟩ => ⟨S4096x64, .f32⟩
  | .local _ .vmem, ⟨3, _⟩ => ⟨S4096x64, .f32⟩
  | .local _ .vmem, ⟨4, _⟩ => ⟨S256x4096, .f32⟩
  | .local _ .vmem, ⟨5, _⟩ => ⟨S256x4096, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  reducesTo_S256x64_S256_d1 : S256x64.ReducesTo [1] S256
  h_S_ : 0 < S_.numel
  pads_S500000x64_S503808x64_038080_000 : S500000x64.Pads (![0, 0] : Fin 2 → Nat) ![3808, 0] ![0, 0] S503808x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  transposes_S4096x64_p1_0_S64x4096 : S4096x64.Transposes [1, 0] S64x4096
  reduces_S4096x64_S4096 : S4096x64.Reduces [1] S4096
  shapeCasts_S4096_S4096x1 : S4096.ShapeCasts S4096x1
  transposes_S4096x1_p1_0_S1x4096 : S4096x1.Transposes [1, 0] S1x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  slices_S256x503808_S256x500000_0_0 : S256x503808.Slices ![0, 0] S256x500000
  gather_S100000x64_S256x1_S256x64_1_0_n_n_0_1_164_wf : GatherDims.WF S100000x64 S256x1 S256x64 [1] [0] [] [0] [] 1 ![1, 64]
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .f32 = 32 ∨ (Rect.block (s := S256x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S503808x64.size a
  hwx0_2 : ∀ i : grid0.Coords, EltTy.bits .f32 = 32 ∨ (Rect.block (s := S503808x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x503808.size a
  hwx0_3 : ∀ i : grid0.Coords, EltTy.bits .f32 = 32 ∨ (Rect.block (s := S256x503808) S256x4096.size (cc0_transform_3 i) (hinb0_3 i)).WholeWords (EltTy.packing .f32)

variable [Facts₀]

def gather_S100000x64_S256x1_S256x64_1_0_n_n_0_1_164 : GatherDims S100000x64 S256x1 S256x64 where
  offsetDims := [1]
  collapsedSliceDims := [0]
  operandBatchingDims := []
  startIndicesBatchingDims := []
  startIndexMap := [0]
  indexVectorDim := 1
  sliceSizes := ![1, 64]
  wf := gather_S100000x64_S256x1_S256x64_1_0_n_n_0_1_164_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_v6) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256 : Shape := ⟨1, ![256]⟩
abbrev S100000x64 : Shape := ⟨2, ![100000, 64]⟩
abbrev S500000x64 : Shape := ⟨2, ![500000, 64]⟩
abbrev S_ : Shape := ⟨0, ![]⟩
abbrev S256x1 : Shape := ⟨2, ![256, 1]⟩
abbrev S256x64 : Shape := ⟨2, ![256, 64]⟩
abbrev S500000 : Shape := ⟨1, ![500000]⟩
abbrev S256x500000 : Shape := ⟨2, ![256, 500000]⟩
abbrev S1x500000 : Shape := ⟨2, ![1, 500000]⟩

abbrev nBuf : Space → Nat
  | .hbm => 29
  | .vmem => 0
  | .smem => 0
  | _ => 0

abbrev bufTy : (tb : Table) → Fin (tcTables nBuf tb) → BufTy
  | .hbm, ⟨0, _⟩ => ⟨S256, .i32⟩
  | .hbm, ⟨1, _⟩ => ⟨S100000x64, .f32⟩
  | .hbm, ⟨2, _⟩ => ⟨S500000x64, .f32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x64, .f32⟩
  | .hbm, ⟨12, _⟩ => ⟨S256x64, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S500000x64, .f32⟩
  | .hbm, ⟨17, _⟩ => ⟨S_, .f32⟩
  | .hbm, ⟨18, _⟩ => ⟨S500000, .f32⟩
  | .hbm, ⟨19, _⟩ => ⟨S256x500000, .f32⟩
  | .hbm, ⟨20, _⟩ => ⟨S1x500000, .f32⟩
  | .hbm, ⟨21, _⟩ => ⟨S256x500000, .f32⟩
  | .hbm, ⟨22, _⟩ => ⟨S256x500000, .f32⟩
  | .hbm, ⟨23, _⟩ => ⟨S256x500000, .f32⟩
  | .hbm, ⟨24, _⟩ => ⟨S_, .f32⟩
  | .hbm, ⟨25, _⟩ => ⟨S256x500000, .f32⟩
  | .hbm, ⟨26, _⟩ => ⟨S256x500000, .f32⟩
  | .hbm, ⟨27, _⟩ => ⟨S256x500000, .f32⟩
  | .hbm, ⟨28, _⟩ => ⟨S256x500000, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  reducesTo_S256x64_S256_d1 : S256x64.ReducesTo [1] S256
  h_S_ : 0 < S_.numel
  reducesTo_S500000x64_S500000_d1 : S500000x64.ReducesTo [1] S500000
  bcast_S500000_S1x500000_1 : S500000.BroadcastsInDim S1x500000 (![1] : Fin 1 → Fin S1x500000.rank)
  bcast_S256x1_S256x500000_0_1 : S256x1.BroadcastsInDim S256x500000 (![0, 1] : Fin 2 → Fin S256x500000.rank)
  bcast_S1x500000_S256x500000_0_1 : S1x500000.BroadcastsInDim S256x500000 (![0, 1] : Fin 2 → Fin S256x500000.rank)
  bcast_S_S256x500000 : S_.BroadcastsInDim S256x500000 (![] : Fin 0 → Fin S256x500000.rank)
  gather_S100000x64_S256x1_S256x64_1_0_n_n_0_1_164_wf : GatherDims.WF S100000x64 S256x1 S256x64 [1] [0] [] [0] [] 1 ![1, 64]
  dot_S256x64_S500000x64_S256x500000_1_1_0_0_n_n_wf : DotDims.WF S256x64 S500000x64 S256x500000 [1] [1] [0] [0] [] []

variable [Facts₀]

def gather_S100000x64_S256x1_S256x64_1_0_n_n_0_1_164 : GatherDims S100000x64 S256x1 S256x64 where
  offsetDims := [1]
  collapsedSliceDims := [0]
  operandBatchingDims := []
  startIndicesBatchingDims := []
  startIndexMap := [0]
  indexVectorDim := 1
  sliceSizes := ![1, 64]
  wf := gather_S100000x64_S256x1_S256x64_1_0_n_n_0_1_164_wf
def dot_S256x64_S500000x64_S256x500000_1_1_0_0_n_n : DotDims S256x64 S500000x64 S256x500000 where
  lhsContracting := [1]
  rhsContracting := [1]
  lhsNonContracting := [0]
  rhsNonContracting := [0]
  lhsBatch := []
  rhsBatch := []
  wf := dot_S256x64_S500000x64_S256x500000_1_1_0_0_n_n_wf

class Facts : Prop extends Facts₀ where

variable [Facts]
-- ==== Proof.RegionArrays.lean ====
/-
  What the tiles are cut from.

  Before the grid runs, the program has prepared three arrays on the host, each a function of the
  arguments alone:
  * `users`: the rows of the user table named by the (sign-normalised) user ids;
  * `norms`: the column of those rows' squared norms — the sum of squares along each row, from zero;
  * `padded`: the item table followed by 3808 rows of the padding value, 503808 rows in all.
  Here each is named, and shown to be what the grid's three input windows read from.
-/
import proofs.«153422_j87969520157217_1_alg».proof.Proof.Gen.KernelIdeal.Frame
import Idealize.ShloMosaic.Lib.StableHlo.Run
import Idealize.ShloMosaic.PureOps.Ideal

noncomputable section

namespace Cert.KernelIdeal.Arrays

open Cert.KernelIdeal Cert.KernelIdeal.Gen Idealize.ShloMosaic Idealize.ShloMosaic.TcCoe Idealize.SL.Sem
open Idealize.ShloMosaic.StableHlo

/-- The user rows the ids name: an id below zero counts from the end of the table. -/
def users (ids : IVec S256 32) (tbl : FVec Ideal S100000x64 .f32) : FVec Ideal S256x64 .f32 :=
  Host.gather gather_S100000x64_S256x1_S256x64_1_0_n_n_0_1_164 tbl
    (broadcastInDim S256x1 ![0] bcast_S256_S256x1_0
      (select (cmpi .slt ids (broadcastInDim S256 ![] bcast_S_S256 (constantI S_ 32 0#32)))
        (addi ids (broadcastInDim S256 ![] bcast_S_S256 (constantI S_ 32 100000#32))) ids))

/-- The squared norm of each of those rows, as a column. -/
def norms (ids : IVec S256 32) (tbl : FVec Ideal S100000x64 .f32) : FVec Ideal S256x1 .f32 :=
  broadcastInDim S256x1 ![0] bcast_S256_S256x1_0
    (Host.reduceAdd (F := Ideal) (mulf (users ids tbl) (users ids tbl)) (constant (F := Ideal) S_ .f32 0x00000000#32) reducesTo_S256x64_S256_d1 h_S_)

/-- The item table padded at the end with rows of the padding value. -/
def padded (items : FVec Ideal S500000x64 .f32) : FVec Ideal S503808x64 .f32 :=
  pad S503808x64 ![0, 0] ![3808, 0] ![0, 0] items (sitofp (F := Ideal) .f32 (constantI S_ 32 0#32)) pads_S500000x64_S503808x64_038080_000 h_S_

variable (m : (ℓ : Loc nD τ sig) → Buf (Elt Ideal) ℓ)

/-- The first window's array holds the gathered user rows. -/
theorem V_users (c : Dev nD) :
    (V m c main_v6 : S256x64.Idx → EReal) = users (m ((c : Thread nD τ).loc main_arg0)) (m ((c : Thread nD τ).loc main_arg1)) := by
  dsimp only [V, V0]
  simp only [hostOps0, hostOps0_1, List.flatten_cons, List.flatten_nil, List.append_nil, List.cons_append, List.nil_append]
  after_results
  rfl

/-- The second window's array holds their squared norms. -/
theorem V_norms (c : Dev nD) :
    (V m c main_v9 : S256x1.Idx → EReal) = norms (m ((c : Thread nD τ).loc main_arg0)) (m ((c : Thread nD τ).loc main_arg1)) := by
  dsimp only [V, V0]
  simp only [hostOps0, hostOps0_1, List.flatten_cons, List.flatten_nil, List.append_nil, List.cons_append, List.nil_append]
  after_results
  rfl

/-- The third window's array holds the padded item table. -/
theorem V_padded (c : Dev nD) :
    (V m c main_v10 : S503808x64.Idx → EReal) = padded (m ((c : Thread nD τ).loc main_arg2)) := by
  dsimp only [V, V0]
  simp only [hostOps0, hostOps0_1, List.flatten_cons, List.flatten_nil, List.append_nil, List.cons_append, List.nil_append]
  after_results
  rfl

end Cert.KernelIdeal.Arrays

end
-- ==== Proof.Score.lean ====
/-
  The score both programs compute, as one function of three arrays.

  For a user row `p` and an item row `q` the score is the negated squared distance between the
  two embedding rows, written through the expansion ‖u‖² + ‖v‖² − 2·⟨u, v⟩:

      score(p, q) = −( (usq(p) + Σ_d it(q,d)·it(q,d)) − 2 · Σ_d u(p,d)·it(q,d) )

  over the extended reals, with `usq` the column of the users' squared norms (an argument here: both
  programs obtain it, and the gathered user rows `u`, by the same host operations). The number of item
  rows `n` is a parameter: a tile of 4096 rows, the zero-padded table and the table itself are all
  read through this one definition. The factor 2 is kept as the word `0x40000000` both programs carry.
-/
import Idealize.ShloMosaic.PureOps.Ideal
import Idealize.ShloMosaic.PureOps.Ideal.Laws
import Idealize.ShloMosaic.Lib.ValueIdx

noncomputable section

open scoped BigOperators

namespace Cert.Score

open Idealize.ShloMosaic Idealize.ShloMosaic.ValueIdx

/-- The score of user row `p` against item row `q`. -/
def scoreAt {n : ℕ} (u : FVec Ideal ⟨2, ![256, 64]⟩ .f32) (usq : FVec Ideal ⟨2, ![256, 1]⟩ .f32)
    (it : FVec Ideal ⟨2, ![n, 64]⟩ .f32) (p : Fin 256) (q : Fin n) : EReal :=
  -((usq (ix2 p (0 : Fin 1)) + ∑ d : Fin 64, it (ix2 q d) * it (ix2 q d))
    - Ideal.ofBits .f32 0x40000000#32 * ∑ d : Fin 64, u (ix2 p d) * it (ix2 q d))

/-- The whole table of scores. -/
def score {n : ℕ} (u : FVec Ideal ⟨2, ![256, 64]⟩ .f32) (usq : FVec Ideal ⟨2, ![256, 1]⟩ .f32)
    (it : FVec Ideal ⟨2, ![n, 64]⟩ .f32) : FVec Ideal ⟨2, ![256, n]⟩ .f32 :=
  fun i => scoreAt u usq it (i 0) (i 1)

theorem score_ix2 {n : ℕ} (u : FVec Ideal ⟨2, ![256, 64]⟩ .f32) (usq : FVec Ideal ⟨2, ![256, 1]⟩ .f32)
    (it : FVec Ideal ⟨2, ![n, 64]⟩ .f32) (p : Fin 256) (q : Fin n) :
    score u usq it (ix2 p q) = scoreAt u usq it p q := rfl

/-- A score depends on its three arrays only through the rows it names: user row `p`, the norm of
    user row `p`, item row `q`. Two triples of arrays that agree on those rows (row `p'`, `q'` of the
    second triple) give the same score. -/
theorem scoreAt_congr {n n' : ℕ} (u u' : FVec Ideal ⟨2, ![256, 64]⟩ .f32) (usq usq' : FVec Ideal ⟨2, ![256, 1]⟩ .f32)
    (it : FVec Ideal ⟨2, ![n, 64]⟩ .f32) (it' : FVec Ideal ⟨2, ![n', 64]⟩ .f32) (p p' : Fin 256) (q : Fin n) (q' : Fin n')
    (hu : ∀ d : Fin 64, u (ix2 p d) = u' (ix2 p' d)) (hs : usq (ix2 p (0 : Fin 1)) = usq' (ix2 p' (0 : Fin 1)))
    (hi : ∀ d : Fin 64, it (ix2 q d) = it' (ix2 q' d)) :
    scoreAt u usq it p q = scoreAt u' usq' it' p' q' := by
  unfold scoreAt
  simp only [hu, hs, hi]

end Cert.Score

end
-- ==== Proof.LibKeepdimsColumn.lean ====
/-
  A column kept by a row reduction, read at an index.

  A sum along the rows of a matrix that keeps its reduced axis produces a column `[a, 1]`. Two layout
  steps around such a column are read here by coordinates, for arbitrary extents:
  * a vector `[a]` viewed as the column `[a, 1]` has, at `(i, 0)`, the vector's entry `i`
    (the two positions have the same row-major rank);
  * a column `[a, 1]` repeated along a new second axis to `[a, b]` has, at `(p, c)`, the column's
    entry `(p, 0)` (its second axis has extent one, so every `c` reads position `0`).
-/
import Idealize.ShloMosaic.Lib.Pipeline.Value
import Idealize.ShloMosaic.Lib.ValueIdx

noncomputable section

namespace Idealize.ShloMosaic.KeepdimsColumn

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeepdimsColumn

end
-- ==== Proof.TilePayload.lean ====
/-
  One tile of scores: the body's arithmetic read at an index.

  At a grid point the body holds the gathered user rows `x0` (256 × 64), the column of their squared
  norms `x1` (256 × 1) and one tile `x2` of 4096 item rows (4096 × 64). What it stores, read at row `p`
  and column `q` of the 256 × 4096 tile, is the score of user row `p` against the tile's item row `q`:

  * the norms' column repeated along the columns reads `x1 (p, 0)`;
  * the row sums of the squared tile — a sum along each row, viewed as a column, transposed to a row and
    repeated along the rows — read `Σ_d x2(q,d)·x2(q,d)`;
  * the matrix product of the user rows with the TRANSPOSED tile, accumulated from zero, reads
    `Σ_d x0(p,d)·x2(q,d)` (the narrowing of both factors to a shorter float format is the identity on
    extended reals);
  * and `0 − ((a + b) − 2·c)` is `−((a + b) − 2·c)`.
-/
import proofs.«153422_j87969520157217_1_alg».proof.Proof.Gen.KernelIdeal.Skeleton
import proofs.«153422_j87969520157217_1_alg».proof.Proof.Score
import proofs.«153422_j87969520157217_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx
open Idealize.ShloMosaic.KeepdimsColumn Cert.Score

/-! ## The norms' column, repeated along the columns -/

theorem usq_read (x1 : FVec Ideal S256x1 .f32) (hb : S256x1.Broadcasts S256x4096) (p : Fin 256) (q : Fin 4096) :
    broadcastTo S256x4096 x1 hb (ix2 p q) = x1 (ix2 p (0 : Fin 1)) :=
  broadcastTo_a1_ab_apply x1 hb p q

/-! ## The item rows' squared norms, as a row repeated along the rows -/

theorem isq_read (y : FVec Ideal S4096x64 .f32) (hr : S4096x64.Reduces [1] S4096) (hs : S4096.ShapeCasts S4096x1)
    (ht : S4096x1.Transposes [1, 0] S1x4096) (hb : S1x4096.Broadcasts S256x4096) (p : Fin 256) (q : Fin 4096) :
    broadcastTo S256x4096 (transpose S1x4096 [1, 0]
        (shapeCast S4096x1 (multiReduction (F := Ideal) .add [1] S4096 (mulf y y) 0x00000000#32 hr (.inl rfl) rfl) hs) ht) hb (ix2 p q)
      = ∑ d : Fin 64, y (ix2 q d) * y (ix2 q d) := by
  refine (broadcastTo_1b_ab_apply _ hb p q).trans ?_
  refine (transpose_ix2_apply _ ht (0 : Fin 1) q).trans ?_
  refine (shapeCast_a_a1_apply _ hs q (0 : Fin 1)).trans ?_
  refine (Ideal.multiReduction_add_single (mulf y y) 0x00000000#32 hr (.inl rfl) rfl (ix1 q)).trans ?_
  refine Finset.sum_congr rfl fun k _ => ?_
  have e : hr.lift (ix1 q) k = ix2 q k := funext fun a => Fin.ext (by
    match a with
    | ⟨0, _⟩ => rfl
    | ⟨1, _⟩ => rfl)
  show y (hr.lift (ix1 q) k) * y (hr.lift (ix1 q) k) = _
  rw [e]
  rfl

/-! ## The product of the user rows with the transposed tile -/

theorem lhs_axis0 (i : S256x4096.Idx) (k : dot_S256x64_S64x4096_S256x4096_1_0_0_1_n_n.contr.Idx) :
    (dot_S256x64_S64x4096_S256x4096_1_0_0_1_n_n.lhsIdx i k 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
theorem lhs_axis1 (i : S256x4096.Idx) (k : dot_S256x64_S64x4096_S256x4096_1_0_0_1_n_n.contr.Idx) :
    (dot_S256x64_S64x4096_S256x4096_1_0_0_1_n_n.lhsIdx i k 1).val = (k ⟨0, by decide⟩).val :=
  dot_S256x64_S64x4096_S256x4096_1_0_0_1_n_n.lhsIdx_val_of_single rfl i k
theorem rhs_axis0 (i : S256x4096.Idx) (k : dot_S256x64_S64x4096_S256x4096_1_0_0_1_n_n.contr.Idx) :
    (dot_S256x64_S64x4096_S256x4096_1_0_0_1_n_n.rhsIdx i k 0).val = (k ⟨0, by decide⟩).val :=
  dot_S256x64_S64x4096_S256x4096_1_0_0_1_n_n.rhsIdx_val_of_single rfl i k
theorem rhs_axis1 (i : S256x4096.Idx) (k : dot_S256x64_S64x4096_S256x4096_1_0_0_1_n_n.contr.Idx) :
    (dot_S256x64_S64x4096_S256x4096_1_0_0_1_n_n.rhsIdx i k 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

theorem cross_read (a : FVec Ideal S256x64 .f32) (y : FVec Ideal S4096x64 .f32) (hl : FTy.bits .bf16 < FTy.bits .f32)
    (ht : S4096x64.Transposes [1, 0] S64x4096) (p : Fin 256) (q : Fin 4096) :
    matmul (F := Ideal) dot_S256x64_S64x4096_S256x4096_1_0_0_1_n_n none (truncf .bf16 a hl)
        (transpose S64x4096 [1, 0] (truncf .bf16 y hl) ht) (constant S256x4096 .f32 0x00000000#32) (ix2 p q)
      = ∑ d : Fin 64, a (ix2 p d) * y (ix2 q d) := by
  simp only [matmul]
  rw [Ideal.matmul_constant_zero_apply, ← Equiv.sum_comp (contrEquiv1 dot_S256x64_S64x4096_S256x4096_1_0_0_1_n_n 64 rfl rfl).symm]
  refine Finset.sum_congr rfl fun k _ => ?_
  have hk := contrEquiv1_symm_val dot_S256x64_S64x4096_S256x4096_1_0_0_1_n_n 64 rfl rfl k
  have el : dot_S256x64_S64x4096_S256x4096_1_0_0_1_n_n.lhsIdx (ix2 p q) ((contrEquiv1 dot_S256x64_S64x4096_S256x4096_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S256x64_S64x4096_S256x4096_1_0_0_1_n_n.rhsIdx (ix2 p q) ((contrEquiv1 dot_S256x64_S64x4096_S256x4096_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]
  exact congrArg (a (ix2 p k) * ·) (transpose_ix2_apply (truncf .bf16 y hl) ht k q)

/-! ## The stored tile -/

/-- What the body stores, at row `p` and column `q` of the tile, is the score of user row `p` against
    the tile's item row `q`. -/
theorem pay_apply (x0 : Vec Ideal S256x64 .f32) (x2 : Vec Ideal S4096x64 .f32) (x1 : Vec Ideal S256x1 .f32)
    (p : Fin 256) (q : Fin 4096) :
    k0_pay1 (F := Ideal) x0 x2 x1 (ix2 p q) = scoreAt x0 x1 x2 p q := by
  unfold k0_pay1
  simp only [shapeCast_self, subf_apply, addf_apply, mulf_apply, broadcast_apply, usq_read]
  unfold scoreAt
  rw [show Scalar.ofBits (F := Ideal) .f32 0x00000000#32 = (0 : EReal) from Ideal.ofBits_zero_f32, zero_sub]
  exact congrArg Neg.neg (congrArg₂ (· - ·)
    (congrArg (x1 (ix2 p (0 : Fin 1)) + ·) (isq_read x2 _ _ _ _ p q))
    (congrArg (Ideal.ofBits .f32 0x40000000#32 * ·) (cross_read x0 x2 _ _ p q)))

/-- The same, as one equation between tiles. -/
theorem pay_eq (x0 : Vec Ideal S256x64 .f32) (x2 : Vec Ideal S4096x64 .f32) (x1 : Vec Ideal S256x1 .f32) :
    k0_pay1 (F := Ideal) x0 x2 x1 = score x0 x1 x2 := by
  funext j
  obtain ⟨p, q, rfl⟩ : ∃ (p : Fin 256) (q : Fin 4096), j = ix2 p q := ⟨j 0, j 1, eq_ix2 j⟩
  exact pay_apply x0 x2 x1 p q

end Cert.KernelIdeal.Tile

end
-- ==== Proof.ScoreTable.lean ====
/-
  From tiles to the whole table.

  The grid has 123 points. Point `t` reads the user rows and their norms whole, reads rows
  `4096·t … 4096·t + 4095` of the padded item table, and writes columns `4096·t … 4096·t + 4095` of the
  256 × 503808 result. Since the stored tile at (p, q) is the score of user row `p` against the tile's
  item row `q` — that is, against row `4096·t + q` of the padded table — point `t` writes exactly the
  block of ONE table of scores: `score users norms padded`. The 123 column blocks tile all 503808
  columns (column `j` lies in block `j / 4096`), so after the grid the result array IS that table.
-/
import proofs.«153422_j87969520157217_1_alg».proof.Proof.Gen.KernelIdeal.Frame
import proofs.«153422_j87969520157217_1_alg».proof.Proof.TilePayload
import Idealize.ShloMosaic.Lib.Pipeline.Value

set_option maxRecDepth 16384

noncomputable section

namespace Cert.KernelIdeal.Table

open Cert.KernelIdeal Cert.KernelIdeal.Gen Idealize.ShloMosaic Idealize.ShloMosaic.TcCoe Idealize.SL.Sem
open Idealize.ShloMosaic.Pipeline (Dat)
open Idealize.ShloMosaic.ValueIdx Cert.Score

variable (m : (ℓ : Loc nD τ sig) → Buf (Elt Ideal) ℓ)

/-- The three arrays the windows read, at their literal types. -/
abbrev usersArr (c : Dev nD) : FVec Ideal S256x64 .f32 := V m c main_v6
abbrev normsArr (c : Dev nD) : FVec Ideal S256x1 .f32 := V m c main_v9
abbrev paddedArr (c : Dev nD) : FVec Ideal S503808x64 .f32 := V m c main_v10

/-- The table of scores over the padded item rows. -/
abbrev table (c : Dev nD) : FVec Ideal S256x503808 .f32 := score (usersArr m c) (normsArr m c) (paddedArr m c)

theorem zero_offsets : (![0, 0] : Fin 2 → Nat) = fun _ => 0 := funext fun a => by fin_cases a <;> rfl

/-- Where each window's block sits at point `t`: the users' and the norms' windows never move, the item
    window is at row block `t`, the result window at column block `t`. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The users' block is the whole array. -/
theorem users_block (c : Dev nD) (t : Fin cfg0.N) (p : Fin 256) (d : Fin 64) :
    iblk m c 0 t (ix2 p d) = usersArr m c (ix2 p d) := by
  show V m c main_v6 (((cfg0.win 0).blk t).view.emb (ix2 p d)) = V m c main_v6 (ix2 p d)
  obtain ⟨e0, e1, -⟩ := block_indices t
  refine congrArg (V m c main_v6) (funext fun a => Fin.ext ?_)
  match a with
  | ⟨0, _⟩ => show win0_0.index t (0 : Fin 2) * 256 + 1 * p.val = p.val; omega
  | ⟨1, _⟩ => show win0_0.index t (1 : Fin 2) * 64 + 1 * d.val = d.val; omega

/-- The norms' block is the whole column. -/
theorem norms_block (c : Dev nD) (t : Fin cfg0.N) (p : Fin 256) (z : Fin 1) :
    iblk m c 1 t (ix2 p z) = normsArr m c (ix2 p z) := by
  show V m c main_v9 (((cfg0.win 1).blk t).view.emb (ix2 p z)) = V m c main_v9 (ix2 p z)
  obtain ⟨-, -, e0, e1, -⟩ := block_indices t
  refine congrArg (V m c main_v9) (funext fun a => Fin.ext ?_)
  match a with
  | ⟨0, _⟩ => show win0_1.index t (0 : Fin 2) * 256 + 1 * p.val = p.val; omega
  | ⟨1, _⟩ => show win0_1.index t (1 : Fin 2) * 1 + 1 * z.val = z.val; omega

/-- Row `q` of the item block at point `t` is row `4096·t + q` of the padded table. -/
theorem items_block (c : Dev nD) (t : Fin cfg0.N) (q : Fin 4096) (d : Fin 64) (r : Fin 503808)
    (hr : r.val = t.val * 4096 + q.val) :
    iblk m c 2 t (ix2 q d) = paddedArr m c (ix2 r d) := by
  show V m c main_v10 (((cfg0.win 2).blk t).view.emb (ix2 q d)) = V m c main_v10 (ix2 r d)
  obtain ⟨-, -, -, -, e0, e1, -⟩ := block_indices t
  refine congrArg (V m c main_v10) (funext fun a => Fin.ext ?_)
  match a with
  | ⟨0, _⟩ => show win0_2.index t (0 : Fin 2) * 4096 + 1 * q.val = r.val; omega
  | ⟨1, _⟩ => show win0_2.index t (1 : Fin 2) * 64 + 1 * d.val = d.val; omega

/-- WHAT POINT `t` WRITES BACK is block `t` of the table. -/
theorem flushed_eq (c : Dev nD) (t : Fin cfg0.N) :
    (dats m 0 c).flushed 3 t = ((cfg0.win 3).blk t).view.read (Elt Ideal) (table m c) := by
  show (cfg0.win 3).cut (grid0.coords t) ((dats m 0 c).after 3 t) = _
  rw [after0_3]
  unfold out0_3
  rw [View.canon_unit_zero zero_offsets]
  simp only [View.ld_unit_zero (S := S256x64) zero_offsets, View.ld_unit_zero (S := S4096x64) zero_offsets,
    View.ld_unit_zero (S := S256x1) zero_offsets]
  funext j
  obtain ⟨p, q, rfl⟩ : ∃ (p : Fin 256) (q : Fin 4096), j = ix2 p q := ⟨j 0, j 1, eq_ix2 j⟩
  refine (Tile.pay_apply (iblk m c 0 t) (iblk m c 2 t) (iblk m c 1 t) p q).trans ?_
  obtain ⟨-, -, -, -, -, -, e0, e1⟩ := block_indices t
  have ht : t.val < 123 := lt_of_lt_of_eq t.isLt (N_0 : cfg0.N = 123)
  have hp : (((cfg0.win 3).blk t).view.emb (ix2 p q) 0).val = p.val := by
    show win0_3.index t (0 : Fin 2) * 256 + 1 * p.val = p.val; omega
  have hq : (((cfg0.win 3).blk t).view.emb (ix2 p q) 1).val = t.val * 4096 + q.val := by
    show win0_3.index t (1 : Fin 2) * 4096 + 1 * q.val = t.val * 4096 + q.val; omega
  show scoreAt (iblk m c 0 t) (iblk m c 1 t) (iblk m c 2 t) p q
      = scoreAt (usersArr m c) (normsArr m c) (paddedArr m c)
          (((cfg0.win 3).blk t).view.emb (ix2 p q) 0) (((cfg0.win 3).blk t).view.emb (ix2 p q) 1)
  have hp' : (((cfg0.win 3).blk t).view.emb (ix2 p q) 0 : Fin 256) = p := Fin.ext hp
  rw [hp']
  exact scoreAt_congr _ _ _ _ _ _ p p q _ (fun d => users_block m c t p d) (norms_block m c t p 0)
    (fun d => items_block m c t q d _ hq)

/-- An index of the result array is in point `t`'s block iff each coordinate is in the block's range. -/
theorem mem_block (t : Fin cfg0.N) (i : S256x503808.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v11).slice (win0_3.rect t)).set ↔ _
  rw [View.set_slice_whole, Rect.mem_set_unit]
  exact Iff.rfl

/-- Every index of the result array is in some point's block: column `j` is in block `j / 4096`. -/
theorem covered (i : S256x503808.Idx) :
    ∃ t : Fin cfg0.N, (cfg0.win 3).flush t = true ∧ i ∈ ((cfg0.win 3).blk t).view.set := by
  have hi0 : (i 0).val < 256 := idx2_lt0 i
  have hi1 : (i 1).val < 503808 := idx2_lt1 i
  have hN : (i 1).val / 4096 < cfg0.N := by rw [show cfg0.N = 123 from N_0]; omega
  refine ⟨⟨(i 1).val / 4096, hN⟩, flush0_3 _, ?_⟩
  rw [mem_block]
  obtain ⟨-, -, -, -, -, -, e0, e1⟩ := block_indices ⟨(i 1).val / 4096, hN⟩
  intro a
  match a with
  | ⟨0, _⟩ =>
    show win0_3.index ⟨(i 1).val / 4096, hN⟩ (0 : Fin 2) * 256 ≤ (i 0).val ∧ (i 0).val < win0_3.index ⟨(i 1).val / 4096, hN⟩ (0 : Fin 2) * 256 + 256
    omega
  | ⟨1, _⟩ =>
    show win0_3.index ⟨(i 1).val / 4096, hN⟩ (1 : Fin 2) * 4096 ≤ (i 1).val ∧ (i 1).val < win0_3.index ⟨(i 1).val / 4096, hN⟩ (1 : Fin 2) * 4096 + 4096
    have e1' : win0_3.index ⟨(i 1).val / 4096, hN⟩ (1 : Fin 2) = (i 1).val / 4096 := e1
    omega

/-- THE RESULT ARRAY after the grid is the table of scores over the padded item rows. -/
theorem final (c : Dev nD) : (dats m 0 c).arrAt 3 cfg0.N = table m c :=
  (dats m 0 c).arrAt_eq_of_cover 3 (table m c) (fun t _ => flushed_eq m c t) covered

end Cert.KernelIdeal.Table

end
-- ==== Proof.KernelRun.lean ====
/-
  The idealized kernel's run, read.

  After the grid the program keeps columns `0 … 499999` of the 256 × 503808 result. Column `q` of
  what is kept is column `q` of the table of scores over the PADDED item rows, and a score depends on
  the item table only through the one row it names; below row 500000 the padded table is the item table
  itself. So the 3808 padding rows never reach the result, and what the program returns is the table of
  scores of the gathered user rows against the item table — one function of the three arguments.
-/
import proofs.«153422_j87969520157217_1_alg».proof.Proof.Gen.KernelIdeal.Frame
import proofs.«153422_j87969520157217_1_alg».proof.Proof.RegionArrays
import proofs.«153422_j87969520157217_1_alg».proof.Proof.ScoreTable
import Idealize.ShloMosaic.Lib.ValueLayout
import Idealize.ShloMosaic.Lib.KernelVsHost
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo
open Idealize.ShloMosaic.ValueIdx Cert.Score Cert.KernelIdeal.Arrays

variable (m : (ℓ : Loc nD τ sig) → Buf (Elt Ideal) ℓ) (ρ : Dev nD → PrngReg)

/-- What the program returns, as a function of its three arguments. -/
def result (ids : IVec S256 32) (tbl : FVec Ideal S100000x64 .f32) (items : FVec Ideal S500000x64 .f32) :
    FVec Ideal S256x500000 .f32 :=
  score (users ids tbl) (norms ids tbl) items

/-- The kept columns are a slice of the grid's result array. -/
theorem tail_result (c : Dev nD) :
    (Pipeline.afterTail₀ cfgs (dats m) 0 (V0 m) [hostOps1] c main_v12 : S256x500000.Idx → EReal)
      = extractStridedSlice S256x500000 ![0, 0] (Table.table m c) slices_S256x503808_S256x500000_0_0 := by
  unfold Pipeline.afterTail₀
  show StableHlo.after hostOps1 _ (Proc.devRef .tc main_v12) = _
  after_results
  exact congrArg (extractStridedSlice S256x500000 ![0, 0] · slices_S256x503808_S256x500000_0_0)
    ((Pipeline.withArrays_arr spec0 launch0.win.arr_inj c (V0 m c) (fun w => (dats m 0 c).arrAt w cfg0.N) 3).trans (Table.final m c))

/-- A row of the padded table below row 500000 is that row of the item table. -/
theorem padded_row (items : FVec Ideal S500000x64 .f32) (q : Fin 500000) (r : Fin 503808) (hr : r.val = q.val) (d : Fin 64) :
    padded items (ix2 r d) = items (ix2 q d) := by
  unfold padded
  refine pad_apply_of_inside ![0, 0] ![3808, 0] ![0, 0] items _ pads_S500000x64_S503808x64_038080_000 h_S_ (ix2 r d) (ix2 q d) fun a => ?_
  match a with
  | ⟨0, _⟩ => show r.val = 0 + q.val * (0 + 1); omega
  | ⟨1, _⟩ => show d.val = 0 + d.val * (0 + 1); omega

/-- The kept columns, entry by entry, are the scores against the item table. -/
theorem kept_eq (c : Dev nD) :
    extractStridedSlice S256x500000 ![0, 0] (Table.table m c) slices_S256x503808_S256x500000_0_0
      = result (m ((c : Thread nD τ).loc main_arg0)) (m ((c : Thread nD τ).loc main_arg1)) (m ((c : Thread nD τ).loc main_arg2)) := by
  funext i
  obtain ⟨p, q, rfl⟩ : ∃ (p : Fin 256) (q : Fin 500000), i = ix2 p q := ⟨i 0, i 1, eq_ix2 i⟩
  refine (slice2_axis1_eq 0 (Table.table m c) slices_S256x503808_S256x500000_0_0 p q).trans ?_
  show scoreAt (Table.usersArr m c) (Table.normsArr m c) (Table.paddedArr m c) p _ = scoreAt _ _ _ p q
  refine scoreAt_congr _ _ _ _ _ _ p p _ q (fun d => congrFun (V_users m c) _) (congrFun (V_norms m c) _) (fun d => ?_)
  refine (congrFun (V_padded m c) _).trans ?_
  exact padded_row _ q _ (Nat.zero_add _) d

/-- THE RUN: every weakly fair execution terminates with the result at `result` of the arguments, and the
    arguments unchanged. -/
theorem run : θ_run defs (onTc (τ := τ) (main (F := Ideal))) ⟨m, fun _ => 0, ρ⟩ fun r => ∀ c : Dev nD,
      r.2.mem ((c : Thread nD τ).loc main_v12)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(((h c).2 main_v12 (Pipeline.mem_restRefs_of main_v12 (by decide) (by decide))).trans (tail_result m c)).trans (kept_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefScore.lean ====
/-
  The reference computes the table of scores.

  Entry (p, q) of the reference's result is the negation of
  `(norms(p,0) + (0 + Σ_k items(q,k)·items(q,k))) − 2 · Σ_k users(p,k)·items(q,k)`:
  the norms' column and the items' squared norms broadcast to the table, the product of the user rows
  with the item rows contracted over the embedding axis, and the closing subtraction and negation. With
  the zero the row sum starts from dropped, that is the score of user row `p` against item row `q`.
  The gathered user rows and their norms enter as the reference's own two stages; nothing about the
  gather itself is needed.
-/
import proofs.«153422_j87969520157217_1_alg».proof.Proof.Gen.ReferenceIdeal.Read
import proofs.«153422_j87969520157217_1_alg».proof.Proof.Score

noncomputable section

open scoped BigOperators

namespace Cert.ReferenceIdeal.RefScore

open Cert.ReferenceIdeal Cert.ReferenceIdeal.Gen Cert.ReferenceIdeal.Read Idealize.ShloMosaic
open Idealize.ShloMosaic.ValueIdx Cert.Score

theorem ref_is_score (x0 : (⟨S256, .i32⟩ : BufTy).Contents (Elt Ideal)) (x1 : (⟨S100000x64, .f32⟩ : BufTy).Contents (Elt Ideal))
    (x2 : (⟨S500000x64, .f32⟩ : BufTy).Contents (Elt Ideal)) :
    val_main_v20 (F := Ideal) x0 x1 x2
      = score (val_main_v6 (F := Ideal) x0 x1) (val_main_v9 (F := Ideal) x0 x1) x2 := by
  funext i
  obtain ⟨p, q, rfl⟩ : ∃ (p : Fin 256) (q : Fin 500000), i = ix2 p q := ⟨i 0, i 1, eq_ix2 i⟩
  have e14 : idx_main_v14 (ix2 p q) = ix2 p (0 : Fin 1) := funext fun a => Fin.ext (by
    match a with | ⟨0, _⟩ => rfl | ⟨1, _⟩ => rfl)
  have e15 : idx_main_v13 (idx_main_v15 (ix2 p q)) = ix1 q := funext fun a => Fin.ext (by
    match a with | ⟨0, _⟩ => rfl)
  have e11 : ∀ k : Fin 64, idx_main_v11 (ix1 q) k = ix2 q k := fun k => funext fun a => Fin.ext (by
    match a with | ⟨0, _⟩ => rfl | ⟨1, _⟩ => rfl)
  have el : ∀ k : Fin 64, lidx_main_v12 (ix2 p q) k = ix2 p k := fun k => funext fun a => Fin.ext (by
    match a with | ⟨0, _⟩ => rfl | ⟨1, _⟩ => rfl)
  have er : ∀ k : Fin 64, ridx_main_v12 (ix2 p q) k = ix2 q k := fun k => funext fun a => Fin.ext (by
    match a with | ⟨0, _⟩ => rfl | ⟨1, _⟩ => rfl)
  rw [val_main_v20_apply, val_main_v19_apply, val_main_v16_apply, val_main_v18_apply, val_main_v14_apply,
    val_main_v15_apply, val_main_v13_apply, val_main_v11_apply, val_main_v17_apply, val_main_v12_apply]
  simp only [e14, e15, e11, el, er, val_main_v10_apply, val_main_cst_1_apply, val_main_cst_2_apply, score_ix2, scoreAt,
    Ideal.hostNegf_def, Ideal.negf_def, Ideal.subf_def, Ideal.addf_def, Ideal.mulf_def, Ideal.ofBits_def,
    Ideal.ofBits_zero_f32, zero_add]

end Cert.ReferenceIdeal.RefScore

end
-- ==== Proof.lean ====
/-
  Scores of 256 users against 500000 items: the tiled kernel and the reference agree over the
  extended reals.

  Both programs first gather the 256 user rows the ids name and take the squared norm of each row; these
  host operations are the same in both, so the gathered rows `users` and the column `norms` are ONE pair
  of terms of the arguments, never opened. From there:

  * the reference forms, for user row p and item row q,
      −( (norms(p) + (0 + Σ_d items(q,d)²)) − 2 · Σ_d users(p,d)·items(q,d) );
  * the kernel pads the item table to 123 tiles of 4096 rows, and at tile t computes for its rows
      0 − ( (norms(p) + Σ_d tile(q,d)²) − 2 · Σ_d users(p,d)·tile(q,d) ),
    the product taken against the transposed tile from a zero accumulator and both factors narrowed to a
    shorter float format (the identity on extended reals); it writes tile t's scores to columns
    4096·t … 4096·t+4095 and finally keeps columns 0 … 499999.

  Entry by entry both are the score `−((norms(p) + Σ_d v(d)²) − 2·Σ_d users(p,d)·v(d))` of user row p
  against item row q (`v` = that row): `0 − x = −x` and `0 + s = s` hold for every extended real, so no
  finiteness of the inputs is used. The 123 column blocks tile the padded width, a score reads the item
  table only at the row it names, and the padded table is the item table below row 500000; so the padding
  rows never reach a kept column.

  The three frames are the generated ones (the reference's is its run with the result dropped); the
  kernel's idealization rewrote nothing, so the idealization claim is trivial.
-/
import proofs.«153422_j87969520157217_1_alg».proof.Defs
import proofs.«153422_j87969520157217_1_alg».proof.Proof.Gen.Kernel
import proofs.«153422_j87969520157217_1_alg».proof.Proof.Gen.Kernel.Skeleton
import proofs.«153422_j87969520157217_1_alg».proof.Proof.Gen.Kernel.Launch
import proofs.«153422_j87969520157217_1_alg».proof.Proof.Gen.Kernel.Points
import proofs.«153422_j87969520157217_1_alg».proof.Proof.Gen.Kernel.Frame
import proofs.«153422_j87969520157217_1_alg».proof.Proof.Gen.KernelIdeal
import proofs.«153422_j87969520157217_1_alg».proof.Proof.Gen.KernelIdeal.Skeleton
import proofs.«153422_j87969520157217_1_alg».proof.Proof.Gen.KernelIdeal.Launch
import proofs.«153422_j87969520157217_1_alg».proof.Proof.Gen.KernelIdeal.Points
import proofs.«153422_j87969520157217_1_alg».proof.Proof.Gen.KernelIdeal.Frame
import proofs.«153422_j87969520157217_1_alg».proof.Proof.Gen.ReferenceIdeal
import proofs.«153422_j87969520157217_1_alg».proof.Proof.Gen.Pre_finite_inputs
import proofs.«153422_j87969520157217_1_alg».proof.Proof.Gen.ReferenceIdeal.Run
import proofs.«153422_j87969520157217_1_alg».proof.Proof.Gen.ReferenceIdeal.Read
import proofs.«153422_j87969520157217_1_alg».proof.Proof.KernelRun
import proofs.«153422_j87969520157217_1_alg».proof.Proof.RefScore
import Idealize.ShloMosaic.Adequacy
import Idealize.ShloMosaic.Init

noncomputable section

namespace Cert.Proof

open Idealize.ShloMosaic Idealize.ShloMosaic.TcCoe Idealize.SL.Sem

/-- The gathered user rows are one term of the ids and the user table in both programs. -/
theorem users_shared (x0 : (⟨Cert.ReferenceIdeal.S256, .i32⟩ : BufTy).Contents (Elt Ideal))
    (x1 : (⟨Cert.ReferenceIdeal.S100000x64, .f32⟩ : BufTy).Contents (Elt Ideal)) :
    Cert.ReferenceIdeal.Read.val_main_v6 (F := Ideal) x0 x1 = Cert.KernelIdeal.Arrays.users x0 x1 := rfl

/-- So is the column of their squared norms. -/
theorem norms_shared (x0 : (⟨Cert.ReferenceIdeal.S256, .i32⟩ : BufTy).Contents (Elt Ideal))
    (x1 : (⟨Cert.ReferenceIdeal.S100000x64, .f32⟩ : BufTy).Contents (Elt Ideal)) :
    Cert.ReferenceIdeal.Read.val_main_v9 (F := Ideal) x0 x1 = Cert.KernelIdeal.Arrays.norms x0 x1 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the table of scores of the gathered user rows against the item table. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v20_eq,
    Cert.ReferenceIdeal.RefScore.ref_is_score, users_shared, norms_shared]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
